-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg6 : FVec F S64 .f32) (main_arg7 : FVec F S64x4 .f32) (main_arg8 : FVec F S4 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x4 .f32 := Host.absf main_arg7
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S4 .f32 := Host.absf main_arg8
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : IVec S100000 32) (main_arg3 : FVec F S256x128 .f32) (main_arg4 : FVec F S128 .f32) (main_arg5 : FVec F S128x64 .f32) (main_arg6 : FVec F S64 .f32) (main_arg7 : FVec F S64x4 .f32) (main_arg8 : FVec F S4 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x256 : Shape := ⟨2, ![100000, 256]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1000x4 : Shape := ⟨2, ![1000, 4]⟩
abbrev S1x4 : Shape := ⟨2, ![1, 4]⟩

abbrev nBuf : Space → Nat
  | .hbm => 113
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x4, .f32⟩
  | .hbm, ⟨8, _⟩ => ⟨S4, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S_, .i32⟩
  | .hbm, ⟨19, _⟩ => ⟨S1700000, .i32⟩
  | .hbm, ⟨20, _⟩ => ⟨S1700000, .i1⟩
  | .hbm, ⟨21, _⟩ => ⟨S_, .i32⟩
  | .hbm, ⟨22, _⟩ => ⟨S1700000, .i32⟩
  | .hbm, ⟨23, _⟩ => ⟨S1700000, .i32⟩
  | .hbm, ⟨24, _⟩ => ⟨S1700000, .i32⟩
  | .hbm, ⟨25, _⟩ => ⟨S1700000x1, .i32⟩
  | .hbm, ⟨26, _⟩ => ⟨S_, .f32⟩
  | .hbm, ⟨27, _⟩ => ⟨S1700000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x64, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x1, .f32⟩
  | .hbm, ⟨87, _⟩ => ⟨S1700000x64, .f32⟩
  | .hbm, ⟨88, _⟩ => ⟨S1700000x64, .f32⟩
  | .hbm, ⟨89, _⟩ => ⟨S_, .f32⟩
  | .hbm, ⟨90, _⟩ => ⟨S100000x64, .f32⟩
  | .hbm, ⟨91, _⟩ => ⟨S1700000x1, .i32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S1000x64, .f32⟩
  | .hbm, ⟨98, _⟩ => ⟨S100000x1, .i32⟩
  | .hbm, ⟨99, _⟩ => ⟨S1000x64, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S1000, .f32⟩
  | .hbm, ⟨104, _⟩ => ⟨S100000x1, .i32⟩
  | .hbm, ⟨105, _⟩ => ⟨S1000, .f32⟩
  | .hbm, ⟨106, _⟩ => ⟨S_, .f32⟩
  | .hbm, ⟨107, _⟩ => ⟨S1000, .f32⟩
  | .hbm, ⟨108, _⟩ => ⟨S1000, .f32⟩
  | .hbm, ⟨109, _⟩ => ⟨S1000x1, .f32⟩
  | .hbm, ⟨110, _⟩ => ⟨S1000x64, .f32⟩
  | .hbm, ⟨111, _⟩ => ⟨S1000x64, .f32⟩
  | .hbm, ⟨112, _⟩ => ⟨S1000x4, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S1000x64, .f32⟩
  | .local _ .vmem, ⟨11, _⟩ => ⟨S64x4, .f32⟩
  | .local _ .vmem, ⟨12, _⟩ => ⟨S4, .f32⟩
  | .local _ .vmem, ⟨13, _⟩ => ⟨S1000x4, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1000x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x4_S64x4_0_0 : ∀ a, (![0, 0] : Fin 2 → Nat) a + S64x4.size a ≤ S64x4.size a
  h_S64x4 : 0 < S64x4.numel
  inb_S4_S4_0 : ∀ a, (![0] : Fin 1 → Nat) a + S4.size a ≤ S4.size a
  h_S4 : 0 < S4.numel
  shapeCasts_S4_S1x4 : S4.ShapeCasts S1x4
  broadcasts_S1x4_S1000x4 : S1x4.Broadcasts S1000x4
  reduces_S1000x4_S1000 : S1000x4.Reduces [1] S1000
  shapeCasts_S1000_S1000x1 : S1000.ShapeCasts S1000x1
  broadcasts_S1000x1_S1000x4 : S1000x1.Broadcasts S1000x4
  inb_S1000x4_S1000x4_0_0 : ∀ a, (![0, 0] : Fin 2 → Nat) a + S1000x4.size a ≤ S1000x4.size a
  h_S1000x4 : 0 < S1000x4.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x4_S1000x4_1_0_0_1_n_n_wf : DotDims.WF S1000x64 S64x4 S1000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S1000x64.size a
  hwx2_0 : ∀ i : grid2.Coords, EltTy.bits .f32 = 32 ∨ (Rect.block (s := S1000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x4.size a ≤ S64x4.size a
  hwx2_1 : ∀ i : grid2.Coords, EltTy.bits .f32 = 32 ∨ (Rect.block (s := S64x4) S64x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4.size a ≤ S4.size a
  hwx2_2 : ∀ i : grid2.Coords, EltTy.bits .f32 = 32 ∨ (Rect.block (s := S4) S4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1000x4.size a ≤ S1000x4.size a
  hwx2_3 : ∀ i : grid2.Coords, EltTy.bits .f32 = 32 ∨ (Rect.block (s := S1000x4) S1000x4.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x4_S1000x4_1_0_0_1_n_n : DotDims S1000x64 S64x4 S1000x4 where
  lhsContracting := [1]
  rhsContracting := [0]
  lhsNonContracting := [0]
  rhsNonContracting := [1]
  lhsBatch := []
  rhsBatch := []
  wf := dot_S1000x64_S64x4_S1000x4_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v80) S1000x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S1000x4.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S100000x128 : Shape := ⟨2, ![100000, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1000x4 : Shape := ⟨2, ![1000, 4]⟩
abbrev S1x4 : Shape := ⟨2, ![1, 4]⟩

abbrev nBuf : Space → Nat
  | .hbm => 181
  | .vmem => 0
  | .smem => 0
  | _ => 0

abbrev hbmTy0_0 (i : Nat) : BufTy := match i % 128 with
  | 0 => ⟨S100000x256, .f32⟩
  | 1 => ⟨S2x1600000, .i32⟩
  | 2 => ⟨S100000, .i32⟩
  | 3 => ⟨S256x128, .f32⟩
  | 4 => ⟨S128, .f32⟩
  | 5 => ⟨S128x64, .f32⟩
  | 6 => ⟨S64, .f32⟩
  | 7 => ⟨S64x4, .f32⟩
  | 8 => ⟨S4, .f32⟩
  | 9 => ⟨S100000x128, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S100000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S_, .f32⟩
  | 28 => ⟨S1700000, .f32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x64, .f32⟩
  | 80 => ⟨S100000, .i32⟩
  | 81 => ⟨S1x1600000, .i32⟩
  | 82 => ⟨S1600000, .i32⟩
  | 83 => ⟨S1700000, .i32⟩
  | 84 => ⟨S1x1600000, .i32⟩
  | 85 => ⟨S1600000, .i32⟩
  | 86 => ⟨S1700000, .i32⟩
  | 87 => ⟨S_, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S_, .f32⟩
  | 98 => ⟨S1700000, .f32⟩
  | 99 => ⟨S100000, .f32⟩
  | 100 => ⟨S_, .f32⟩
  | 101 => ⟨S100000, .f32⟩
  | 102 => ⟨S100000, .i1⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S1700000, .f32⟩
  | 127 => ⟨S_, .i32⟩
  | _ => ⟨S100000x256, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000x64, .f32⟩
  | 8 => ⟨S1700000x1, .f32⟩
  | 9 => ⟨S1700000x64, .f32⟩
  | 10 => ⟨S1700000x64, .f32⟩
  | 11 => ⟨S_, .f32⟩
  | 12 => ⟨S100000x64, .f32⟩
  | 13 => ⟨S1700000x1, .i32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S1000x64, .f32⟩
  | 20 => ⟨S100000x1, .i32⟩
  | 21 => ⟨S1000x64, .f32⟩
  | 22 => ⟨S_, .f32⟩
  | 23 => ⟨S100000, .f32⟩
  | 24 => ⟨S_, .f32⟩
  | 25 => ⟨S1000, .f32⟩
  | 26 => ⟨S100000x1, .i32⟩
  | 27 => ⟨S1000, .f32⟩
  | 28 => ⟨S_, .f32⟩
  | 29 => ⟨S1000, .f32⟩
  | 30 => ⟨S1000, .f32⟩
  | 31 => ⟨S1000x1, .f32⟩
  | 32 => ⟨S1000x64, .f32⟩
  | 33 => ⟨S1000x64, .f32⟩
  | 34 => ⟨S1000x4, .f32⟩
  | 35 => ⟨S1x4, .f32⟩
  | 36 => ⟨S1000x4, .f32⟩
  | 37 => ⟨S1000x4, .f32⟩
  | 38 => ⟨S_, .f32⟩
  | 39 => ⟨S1000, .f32⟩
  | 40 => ⟨S_, .f32⟩
  | 41 => ⟨S1000, .f32⟩
  | 42 => ⟨S1000, .f32⟩
  | 43 => ⟨S1000x1, .f32⟩
  | 44 => ⟨S1000x4, .f32⟩
  | 45 => ⟨S1000x4, .f32⟩
  | 46 => ⟨S1000x4, .f32⟩
  | 47 => ⟨S_, .f32⟩
  | 48 => ⟨S1000, .f32⟩
  | 49 => ⟨S1000x1, .f32⟩
  | 50 => ⟨S1000x1, .f32⟩
  | 51 => ⟨S1000x4, .f32⟩
  | 52 => ⟨S1000x4, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_call2_v0 : Ref sig .tc := ⟨.hbm, 105, rfl⟩
abbrev main_call2_v1 : Ref sig .tc := ⟨.hbm, 106, rfl⟩
abbrev main_v73 : Ref sig .tc := ⟨.hbm, 107, rfl⟩
abbrev main_c_17 : Ref sig .tc := ⟨.hbm, 108, rfl⟩
abbrev main_v74 : Ref sig .tc := ⟨.hbm, 109, rfl⟩
abbrev main_v75 : Ref sig .tc := ⟨.hbm, 110, rfl⟩
abbrev main_c_18 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_19 : Ref sig .tc := ⟨.hbm, 117, rfl⟩
abbrev main_v81 : Ref sig .tc := ⟨.hbm, 118, rfl⟩
abbrev main_v82 : Ref sig .tc := ⟨.hbm, 119, rfl⟩
abbrev main_c_20 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_21 : Ref sig .tc := ⟨.hbm, 127, rfl⟩
abbrev main_v89 : Ref sig .tc := ⟨.hbm, 128, rfl⟩
abbrev main_v90 : Ref sig .tc := ⟨.hbm, 129, rfl⟩
abbrev main_c_22 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_23 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_24 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_25 : Ref sig .tc := ⟨.hbm, 150, rfl⟩
abbrev main_v108 : Ref sig .tc := ⟨.hbm, 151, rfl⟩
abbrev main_cst_26 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_27 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_call3_cst : Ref sig .tc := ⟨.hbm, 166, rfl⟩
abbrev main_call3_v0 : Ref sig .tc := ⟨.hbm, 167, rfl⟩
abbrev main_call3_cst_0 : Ref sig .tc := ⟨.hbm, 168, rfl⟩
abbrev main_call3_v1 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_v6 : Ref sig .tc := ⟨.hbm, 174, rfl⟩
abbrev main_call3_cst_1 : Ref sig .tc := ⟨.hbm, 175, rfl⟩
abbrev main_call3_v7 : Ref sig .tc := ⟨.hbm, 176, rfl⟩
abbrev main_call3_v8 : Ref sig .tc := ⟨.hbm, 177, rfl⟩
abbrev main_call3_v9 : Ref sig .tc := ⟨.hbm, 178, rfl⟩
abbrev main_call3_v10 : Ref sig .tc := ⟨.hbm, 179, rfl⟩
abbrev main_v121 : Ref sig .tc := ⟨.hbm, 180, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S4_S1x4_1 : S4.BroadcastsInDim S1x4 (![1] : Fin 1 → Fin S1x4.rank)
  bcast_S1x4_S1000x4_0_1 : S1x4.BroadcastsInDim S1000x4 (![0, 1] : Fin 2 → Fin S1000x4.rank)
  reducesTo_S1000x4_S1000_d1 : S1000x4.ReducesTo [1] S1000
  h_S_ : 0 < S_.numel
  bcast_S1000x1_S1000x4_0_1 : S1000x1.BroadcastsInDim S1000x4 (![0, 1] : Fin 2 → Fin S1000x4.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x4_S1000x4_1_0_0_1_n_n_wf : DotDims.WF S1000x64 S64x4 S1000x4 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x4_S1000x4_1_0_0_1_n_n : DotDims S1000x64 S64x4 S1000x4 where
  lhsContracting := [1]
  rhsContracting := [0]
  lhsNonContracting := [0]
  rhsNonContracting := [1]
  lhsBatch := []
  rhsBatch := []
  wf := dot_S1000x64_S64x4_S1000x4_1_0_0_1_n_n_wf

class Facts : Prop extends Facts₀ where

variable [Facts]
-- ==== Proof.Stages.lean ====
/-
  The host side of the graph-convolution network, as functions of the arrays it reads.

  Both programs apply the same host operations around their dense products: the edge list `e` (two rows of
  1,600,000 node indices) gets the 100,000 self loops appended (`srcIdx`, `dstIdx`); every node's degree is the
  number of edges that end in it, an accumulating scatter of ones at the destination indices, negative
  indices wrapped by the extent (`wrapCol`); its inverse square root, zero where the degree is not positive
  (`invSqrtDeg`); an edge's weight is the product of that quantity at its two ends (`edgeNorm`); one layer's
  aggregation gathers the transformed features at the sources, scales each row by its edge's weight, adds the
  rows up at their destinations (a segment sum) and adds the bias (`aggregate128`, `aggregate64`); the mean
  pool adds the node rows up per graph and divides by the graph's node count, at least one (`meanPool`).
  Each is the composition of the printed operations, spelt once, so that a proof carries it unopened.
-/
import proofs.«128362_j10969346474784_1_alg».proof.Proof.Gen.KernelIdeal

noncomputable section

namespace Cert.KernelIdeal.Stage

open Cert.KernelIdeal Cert.KernelIdeal.Gen Idealize.ShloMosaic

variable {F : FTy → Type} [FloatOps F]

/-- The source node of every edge, the self loops appended: row 0 of the edge list, then 0 … 99,999. -/
def srcIdx (e : (⟨S2x1600000, .i32⟩ : BufTy).Contents (Elt F)) : (⟨S1700000, .i32⟩ : BufTy).Contents (Elt F) :=
  concatenate S1700000 0 [⟨S1600000, (shapeCast S1600000 (extractStridedSlice S1x1600000 ![0, 0] e slices_S2x1600000_S1x1600000_0_0) shapeCasts_S1x1600000_S1600000)⟩, ⟨S100000, (iotaInDim S100000 32 0)⟩] concatenates_S1600000_S100000_S1700000_d0

/-- The destination node of every edge, the self loops appended: row 1 of the edge list, then 0 … 99,999. -/
def dstIdx (e : (⟨S2x1600000, .i32⟩ : BufTy).Contents (Elt F)) : (⟨S1700000, .i32⟩ : BufTy).Contents (Elt F) :=
  concatenate S1700000 0 [⟨S1600000, (shapeCast S1600000 (extractStridedSlice S1x1600000 ![1, 0] e slices_S2x1600000_S1x1600000_1_0) shapeCasts_S1x1600000_S1600000)⟩, ⟨S100000, (iotaInDim S100000 32 0)⟩] concatenates_S1600000_S100000_S1700000_d0

/-- Node indices as a column of index vectors, a negative index moved up by the extent 100,000. -/
def wrapCol (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Every node's degree: ones added up at the destination indices. -/
def degree (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (wrapCol (dstIdx e))
    (broadcastInDim S1700000 ![] bcast_S_S1700000 (constant S_ .f32 0x3F800000#32))

/-- The selection of `invSqrtDeg` over its three operands: where the test holds the first, elsewhere a splat of the scalar. -/
def whereSplat (t : (⟨S100000, .i1⟩ : BufTy).Contents (Elt F)) (a : (⟨S100000, .f32⟩ : BufTy).Contents (Elt F))
    (z : (⟨S_, .f32⟩ : BufTy).Contents (Elt F)) : (⟨S100000, .f32⟩ : BufTy).Contents (Elt F) :=
  select t a (broadcastInDim S100000 ![] bcast_S_S100000 (id z))

/-- The degree's inverse square root, zero where the degree is not positive. -/
def invSqrtDeg (e : (⟨S2x1600000, .i32⟩ : BufTy).Contents (Elt F)) : (⟨S100000, .f32⟩ : BufTy).Contents (Elt F) :=
  whereSplat (cmpf .ogt (degree e) (broadcastInDim S100000 ![] bcast_S_S100000 (constant S_ .f32 0x00000000#32)))
    (Host.rsqrt (degree e)) (constant S_ .f32 0x00000000#32)

/-- The edge weights from a per-node quantity `d` and the two edge lists: `d` at the source times `d` at the destination. -/
def normOf (d : (⟨S100000, .f32⟩ : BufTy).Contents (Elt F)) (src dst : (⟨S1700000, .i32⟩ : BufTy).Contents (Elt F)) :
    (⟨S1700000, .f32⟩ : BufTy).Contents (Elt F) :=
  mulf (Host.gather gather_S100000_S1700000x1_S1700000_n_0_n_n_0_1_1 d (wrapCol src))
    (Host.gather gather_S100000_S1700000x1_S1700000_n_0_n_n_0_1_1 d (wrapCol dst))

/-- An edge's weight: the inverse square roots of the degrees at its two ends, multiplied. -/
def edgeNorm (e : (⟨S2x1600000, .i32⟩ : BufTy).Contents (Elt F)) : (⟨S1700000, .f32⟩ : BufTy).Contents (Elt F) :=
  normOf (invSqrtDeg e) (srcIdx e) (dstIdx e)

/-- One layer's aggregation (128 columns) over given edge lists and weights: the rows of `xw` gathered at the sources, each
    scaled by its edge's weight, added up at the destinations, the bias row added. -/
def aggregateWith128 (xw : (⟨S100000x128, .f32⟩ : BufTy).Contents (Elt F)) (src dst : (⟨S1700000, .i32⟩ : BufTy).Contents (Elt F))
    (w : (⟨S1700000, .f32⟩ : BufTy).Contents (Elt F)) (b : (⟨S128, .f32⟩ : BufTy).Contents (Elt F)) : (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 dst)
      (mulf (Host.gather gather_S100000x128_S1700000x1_S1700000x128_1_0_n_n_0_1_1128 xw (wrapCol src))
        (broadcastInDim S1700000x128 ![0, 1] bcast_S1700000x1_S1700000x128_0_1
          (broadcastInDim S1700000x1 ![0] bcast_S1700000_S1700000x1_0 w))))
    (broadcastInDim S100000x128 ![0, 1] bcast_S1x128_S100000x128_0_1 (broadcastInDim S1x128 ![1] bcast_S128_S1x128_1 b))

/-- The first layer's aggregation of the transformed features `xw` (128 columns) over the edge list `e`. -/
def aggregate128 (xw : (⟨S100000x128, .f32⟩ : BufTy).Contents (Elt F)) (e : (⟨S2x1600000, .i32⟩ : BufTy).Contents (Elt F))
    (b : (⟨S128, .f32⟩ : BufTy).Contents (Elt F)) : (⟨S100000x128, .f32⟩ : BufTy).Contents (Elt F) :=
  aggregateWith128 xw (srcIdx e) (dstIdx e) (edgeNorm e) b

/-- One layer's aggregation (64 columns) over given edge lists and weights: the rows of `xw` gathered at the sources, each
    scaled by its edge's weight, added up at the destinations, the bias row added. -/
def aggregateWith64 (xw : (⟨S100000x64, .f32⟩ : BufTy).Contents (Elt F)) (src dst : (⟨S1700000, .i32⟩ : BufTy).Contents (Elt F))
    (w : (⟨S1700000, .f32⟩ : BufTy).Contents (Elt F)) (b : (⟨S64, .f32⟩ : BufTy).Contents (Elt F)) : (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 dst)
      (mulf (Host.gather gather_S100000x64_S1700000x1_S1700000x64_1_0_n_n_0_1_164 xw (wrapCol src))
        (broadcastInDim S1700000x64 ![0, 1] bcast_S1700000x1_S1700000x64_0_1
          (broadcastInDim S1700000x1 ![0] bcast_S1700000_S1700000x1_0 w))))
    (broadcastInDim S100000x64 ![0, 1] bcast_S1x64_S100000x64_0_1 (broadcastInDim S1x64 ![1] bcast_S64_S1x64_1 b))

/-- The second layer's aggregation of the transformed features `xw` (64 columns) over the edge list `e`. -/
def aggregate64 (xw : (⟨S100000x64, .f32⟩ : BufTy).Contents (Elt F)) (e : (⟨S2x1600000, .i32⟩ : BufTy).Contents (Elt F))
    (b : (⟨S64, .f32⟩ : BufTy).Contents (Elt F)) : (⟨S100000x64, .f32⟩ : BufTy).Contents (Elt F) :=
  aggregateWith64 xw (srcIdx e) (dstIdx e) (edgeNorm e) b

/-- The mean pool: node rows added up per graph, divided by the graph's node count, taken at least one. -/
def meanPool (h : (⟨S100000x64, .f32⟩ : BufTy).Contents (Elt F)) (g : (⟨S100000, .i32⟩ : BufTy).Contents (Elt F)) :
    (⟨S1000x64, .f32⟩ : BufTy).Contents (Elt F) :=
  Host.divf
    (Host.scatterAdd scatter_S1000x64_S100000x1_S100000x64_1_0_0_1
      (broadcastInDim S1000x64 ![] bcast_S_S1000x64 (constant S_ .f32 0x00000000#32))
      (broadcastInDim S100000x1 ![0] bcast_S100000_S100000x1_0 g) h)
    (broadcastInDim S1000x64 ![0, 1] bcast_S1000x1_S1000x64_0_1
      (broadcastInDim S1000x1 ![0] bcast_S1000_S1000x1_0
        (maximumf
          (Host.scatterAdd scatter_S1000_S100000x1_S100000_n_0_0_1
            (broadcastInDim S1000 ![] bcast_S_S1000 (constant S_ .f32 0x00000000#32))
            (broadcastInDim S100000x1 ![0] bcast_S100000_S100000x1_0 g)
            (broadcastInDim S100000 ![] bcast_S_S100000 (constant S_ .f32 0x3F800000#32)))
          (broadcastInDim S1000 ![] bcast_S_S1000 (constant S_ .f32 0x3F800000#32)))))

end Cert.KernelIdeal.Stage

end
-- ==== Proof.Boundary.lean ====
/-
  What each dense stage finds in the arrays it reads, as a function of the program's arguments.

  Between the launch and the first dense stage the host operations build the edge lists with the self loops
  (`srcIdx`, `dstIdx`) and the edge weights (`edgeNorm`) from the edge list alone, and leave the arguments as
  launched. Between the first and the second stage they aggregate the first stage's output (`aggregate128`);
  between the second and the third they aggregate the second stage's output (`aggregate64`) and pool it per
  graph (`meanPool`). Each stretch of host operations is read once, from ANY contents `V` of the buffers before
  it: what it writes as the stage function of what it reads, and that it keeps every buffer it does not write.
  A dense stage writes its own output array and nothing else. The run's contents are these, composed.
-/
import proofs.«128362_j10969346474784_1_alg».proof.Proof.Gen.KernelIdeal.Frame
import proofs.«128362_j10969346474784_1_alg».proof.Proof.Stages
import Idealize.ShloMosaic.Lib.StableHlo.Run

set_option maxRecDepth 16384
-- reading one buffer after a stretch of twenty to thirty-five host operations takes a rewriting step per operation and buffer
set_option maxHeartbeats 8000000

noncomputable section

namespace Cert.KernelIdeal.Boundary

open Cert.KernelIdeal Cert.KernelIdeal.Gen Cert.KernelIdeal.Stage
open Idealize.ShloMosaic Idealize.ShloMosaic.TcCoe Idealize.SL.Sem Idealize.ShloMosaic.StableHlo
open Idealize.ShloMosaic.Pipeline (Dat)

variable {F : FTy → Type} [FloatOps F]

/-! ## Each stretch, from any contents -/

section Stretches

variable (V : Valuation τ sig (Elt F))

/-- The first stretch builds both edge lists, the degree test, the degrees' inverse square roots and a zero. -/
theorem s0_src : StableHlo.after hostOps0 V (Proc.devRef .tc main_v3) = srcIdx (V (Proc.devRef .tc main_arg1)) := by
  after_results; rfl
theorem s0_dst : StableHlo.after hostOps0 V (Proc.devRef .tc main_v6) = dstIdx (V (Proc.devRef .tc main_arg1)) := by
  after_results; rfl
theorem s0_test : StableHlo.after hostOps0 V (Proc.devRef .tc main_v17)
    = cmpf .ogt (degree (V (Proc.devRef .tc main_arg1))) (broadcastInDim S100000 ![] bcast_S_S100000 (constant S_ .f32 0x00000000#32)) := by
  after_results; rfl
theorem s0_rsqrt : StableHlo.after hostOps0 V (Proc.devRef .tc main_v18) = Host.rsqrt (degree (V (Proc.devRef .tc main_arg1))) := by
  after_results; rfl
theorem s0_zero : StableHlo.after hostOps0 V (Proc.devRef .tc main_cst_3) = constant S_ .f32 0x00000000#32 := by
  after_results
/-- It keeps the arguments. -/
theorem s0_kept {b : Ref sig .tc} (hb : b ∈ [main_arg0, main_arg2, main_arg3, main_arg4, main_arg5, main_arg6, main_arg7, main_arg8]) :
    StableHlo.after hostOps0 V (Proc.devRef .tc b) = V (Proc.devRef .tc b) := by
  simp only [List.mem_cons, List.not_mem_nil, or_false] at hb
  rcases hb with rfl | rfl | rfl | rfl | rfl | rfl | rfl | rfl <;> after_results

/-- The second stretch selects the inverse square root where the degree is positive, a splat of the zero elsewhere. -/
theorem s01_dinv : StableHlo.after hostOps0_1 V (Proc.devRef .tc main_v19)
    = whereSplat (V (Proc.devRef .tc main_v17)) (V (Proc.devRef .tc main_v18)) (V (Proc.devRef .tc main_cst_3)) := by
  after_results; rfl
theorem s01_kept {b : Ref sig .tc} (hb : b ∈ [main_v3, main_v6, main_arg0, main_arg2, main_arg3, main_arg4, main_arg5, main_arg6, main_arg7, main_arg8]) :
    StableHlo.after hostOps0_1 V (Proc.devRef .tc b) = V (Proc.devRef .tc b) := by
  simp only [List.mem_cons, List.not_mem_nil, or_false] at hb
  rcases hb with rfl | rfl | rfl | rfl | rfl | rfl | rfl | rfl | rfl | rfl <;> after_results

/-- The third stretch multiplies that quantity at the two ends of every edge. -/
theorem s02_norm : StableHlo.after hostOps0_2 V (Proc.devRef .tc main_v34)
    = normOf (V (Proc.devRef .tc main_v19)) (V (Proc.devRef .tc main_v3)) (V (Proc.devRef .tc main_v6)) := by
  after_results; rfl
theorem s02_kept {b : Ref sig .tc} (hb : b ∈ [main_v3, main_v6, main_arg0, main_arg2, main_arg3, main_arg4, main_arg5, main_arg6, main_arg7, main_arg8]) :
    StableHlo.after hostOps0_2 V (Proc.devRef .tc b) = V (Proc.devRef .tc b) := by
  simp only [List.mem_cons, List.not_mem_nil, or_false] at hb
  rcases hb with rfl | rfl | rfl | rfl | rfl | rfl | rfl | rfl | rfl | rfl <;> after_results

/-- The stretch after the first dense stage aggregates its output over the edges and adds the first bias. -/
theorem s1_h1 : StableHlo.after hostOps1 V (Proc.devRef .tc main_v51)
    = aggregateWith128 (V (Proc.devRef .tc main_v35)) (V (Proc.devRef .tc main_v3)) (V (Proc.devRef .tc main_v6)) (V (Proc.devRef .tc main_v34)) (V (Proc.devRef .tc main_arg4)) := by
  after_results; rfl
theorem s1_kept {b : Ref sig .tc} (hb : b ∈ [main_v3, main_v6, main_v34, main_arg2, main_arg5, main_arg6, main_arg7, main_arg8]) :
    StableHlo.after hostOps1 V (Proc.devRef .tc b) = V (Proc.devRef .tc b) := by
  simp only [List.mem_cons, List.not_mem_nil, or_false] at hb
  rcases hb with rfl | rfl | rfl | rfl | rfl | rfl | rfl | rfl <;> after_results

/-- The stretch after the second dense stage aggregates its output, adds the second bias and pools per graph. -/
theorem s2_pooled : StableHlo.after hostOps2 V (Proc.devRef .tc main_v80)
    = meanPool (aggregateWith64 (V (Proc.devRef .tc main_v52)) (V (Proc.devRef .tc main_v3)) (V (Proc.devRef .tc main_v6)) (V (Proc.devRef .tc main_v34)) (V (Proc.devRef .tc main_arg6))) (V (Proc.devRef .tc main_arg2)) := by
  after_results; rfl
theorem s2_kept {b : Ref sig .tc} (hb : b ∈ [main_arg7, main_arg8]) :
    StableHlo.after hostOps2 V (Proc.devRef .tc b) = V (Proc.devRef .tc b) := by
  simp only [List.mem_cons, List.not_mem_nil, or_false] at hb
  rcases hb with rfl | rfl <;> after_results

/-- The three stretches before the first dense stage, composed: the edge lists, the edge weights, the arguments. -/
theorem pre_src : StableHlo.after hostOps0_2 (StableHlo.after hostOps0_1 (StableHlo.after hostOps0 V)) (Proc.devRef .tc main_v3)
    = srcIdx (V (Proc.devRef .tc main_arg1)) := by
  rw [s02_kept (b := main_v3) _ (by decide), s01_kept (b := main_v3) _ (by decide), s0_src]
theorem pre_dst : StableHlo.after hostOps0_2 (StableHlo.after hostOps0_1 (StableHlo.after hostOps0 V)) (Proc.devRef .tc main_v6)
    = dstIdx (V (Proc.devRef .tc main_arg1)) := by
  rw [s02_kept (b := main_v6) _ (by decide), s01_kept (b := main_v6) _ (by decide), s0_dst]
theorem pre_norm : StableHlo.after hostOps0_2 (StableHlo.after hostOps0_1 (StableHlo.after hostOps0 V)) (Proc.devRef .tc main_v34)
    = edgeNorm (V (Proc.devRef .tc main_arg1)) := by
  rw [s02_norm, s01_dinv, s01_kept (b := main_v3) _ (by decide), s01_kept (b := main_v6) _ (by decide),
    s0_test, s0_rsqrt, s0_zero, s0_src, s0_dst]
  rfl
theorem pre_kept {b : Ref sig .tc} (hb : b ∈ [main_arg0, main_arg2, main_arg3, main_arg4, main_arg5, main_arg6, main_arg7, main_arg8]) :
    StableHlo.after hostOps0_2 (StableHlo.after hostOps0_1 (StableHlo.after hostOps0 V)) (Proc.devRef .tc b) = V (Proc.devRef .tc b) := by
  rw [s02_kept _ (List.mem_cons_of_mem _ (List.mem_cons_of_mem _ hb)), s01_kept _ (List.mem_cons_of_mem _ (List.mem_cons_of_mem _ hb)), s0_kept _ hb]

end Stretches

/-! ## The run's contents -/

variable (m : (ℓ : Loc nD τ sig) → Buf (Elt F) ℓ) (ρ : Dev nD → PrngReg)

/-- The contents at each dense stage's entry are the stretches before it applied to what was there. -/
theorem W3_eq (c : Dev nD) (b : DevRef τ sig) :
    W3 m ρ c b = StableHlo.after hostOps0_2 (StableHlo.after hostOps0_1 (StableHlo.after hostOps0 (W0 m ρ c))) b := rfl
theorem W5_eq (c : Dev nD) (b : DevRef τ sig) : W5 m ρ c b = StableHlo.after hostOps1 (W4 m ρ c) b := rfl
theorem W7_eq (c : Dev nD) (b : DevRef τ sig) : W7 m ρ c b = StableHlo.after hostOps2 (W6 m ρ c) b := rfl

theorem W3_src (c : Dev nD) : W3 m ρ c (Proc.devRef .tc main_v3) = srcIdx (m ((c : Thread nD τ).loc main_arg1)) := by rw [W3_eq, pre_src]
theorem W3_dst (c : Dev nD) : W3 m ρ c (Proc.devRef .tc main_v6) = dstIdx (m ((c : Thread nD τ).loc main_arg1)) := by rw [W3_eq, pre_dst]
theorem W3_norm (c : Dev nD) : W3 m ρ c (Proc.devRef .tc main_v34) = edgeNorm (m ((c : Thread nD τ).loc main_arg1)) := by rw [W3_eq, pre_norm]
theorem W3_kept (c : Dev nD) {b : Ref sig .tc} (hb : b ∈ [main_arg0, main_arg2, main_arg3, main_arg4, main_arg5, main_arg6, main_arg7, main_arg8]) :
    W3 m ρ c (Proc.devRef .tc b) = m ((c : Thread nD τ).loc b) := by rw [W3_eq, pre_kept _ hb]

/-- The second stage's row input: the first stage's output aggregated over the edges, the first bias added. -/
theorem W5_h1 (c : Dev nD) : W5 m ρ c (Proc.devRef .tc main_v51)
    = aggregate128 (W4 m ρ c (Proc.devRef .tc main_v35)) (m ((c : Thread nD τ).loc main_arg1)) (m ((c : Thread nD τ).loc main_arg4)) := by
  rw [W5_eq, s1_h1, W4_of_ne m ρ c main_v3 (by decide), W4_of_ne m ρ c main_v6 (by decide), W4_of_ne m ρ c main_v34 (by decide),
    W4_of_ne m ρ c main_arg4 (by decide), W3_src, W3_dst, W3_norm, W3_kept m ρ c (b := main_arg4) (by decide)]
  rfl

/-- A buffer the first dense stage and the stretch after it leave alone, at the second stage's entry. -/
theorem W5_kept (c : Dev nD) {b : Ref sig .tc} (hb : b ∈ [main_v3, main_v6, main_v34, main_arg2, main_arg5, main_arg6, main_arg7, main_arg8]) :
    W5 m ρ c (Proc.devRef .tc b) = W3 m ρ c (Proc.devRef .tc b) := by
  rw [W5_eq, s1_kept _ hb]
  simp only [List.mem_cons, List.not_mem_nil, or_false] at hb
  rcases hb with rfl | rfl | rfl | rfl | rfl | rfl | rfl | rfl <;> exact W4_of_ne m ρ c _ (by decide)

/-- The head's row input: the second stage's output aggregated over the edges, the second bias added, pooled per graph. -/
theorem W7_pooled (c : Dev nD) : W7 m ρ c (Proc.devRef .tc main_v80)
    = meanPool (aggregate64 (W6 m ρ c (Proc.devRef .tc main_v52)) (m ((c : Thread nD τ).loc main_arg1)) (m ((c : Thread nD τ).loc main_arg6))) (m ((c : Thread nD τ).loc main_arg2)) := by
  rw [W7_eq, s2_pooled, W6_of_ne m ρ c main_v3 (by decide), W6_of_ne m ρ c main_v6 (by decide), W6_of_ne m ρ c main_v34 (by decide),
    W6_of_ne m ρ c main_arg6 (by decide), W6_of_ne m ρ c main_arg2 (by decide),
    W5_kept m ρ c (b := main_v3) (by decide), W5_kept m ρ c (b := main_v6) (by decide), W5_kept m ρ c (b := main_v34) (by decide),
    W5_kept m ρ c (b := main_arg6) (by decide), W5_kept m ρ c (b := main_arg2) (by decide),
    W3_src, W3_dst, W3_norm, W3_kept m ρ c (b := main_arg6) (by decide), W3_kept m ρ c (b := main_arg2) (by decide)]
  rfl

/-- The head's weights and bias are the arguments. -/
theorem W7_kept (c : Dev nD) {b : Ref sig .tc} (hb : b ∈ [main_arg7, main_arg8]) :
    W7 m ρ c (Proc.devRef .tc b) = m ((c : Thread nD τ).loc b) := by
  rw [W7_eq, s2_kept _ hb]
  simp only [List.mem_cons, List.not_mem_nil, or_false] at hb
  rcases hb with rfl | rfl
  · rw [W6_of_ne m ρ c main_arg7 (by decide), W5_kept m ρ c (b := main_arg7) (by decide), W3_kept m ρ c (b := main_arg7) (by decide)]
  · rw [W6_of_ne m ρ c main_arg8 (by decide), W5_kept m ρ c (b := main_arg8) (by decide), W3_kept m ρ c (b := main_arg8) (by decide)]

end Cert.KernelIdeal.Boundary

end
-- ==== Proof.Spec.lean ====
/-
  What the three dense stages compute, over the extended reals, index by index.

  `matProd x w` is the product of an M×K array and a K×N array: entry (r, j) is the sum over k of
  x(r, k) · w(k, j). `relu` is the rectifier, the maximum with the zero word's value. The classifier head adds a
  bias row to such a product (`headLogits`) and takes the logarithm of the softmax along each row of four
  (`logSoftmax`): with M the row's maximum — folded from −∞, and once more against −∞, as both programs do —
  the entry z − M less the logarithm of the row's sum of exp (z − M).
  Float literals stay as the words both programs print; none is evaluated here.
-/
import Idealize.ShloMosaic.PureOps.Ideal
import Idealize.ShloMosaic.Lib.ValueIdx

noncomputable section

namespace Cert.Spec

open Idealize.ShloMosaic Idealize.ShloMosaic.ValueIdx

/-- The product of an M×K and a K×N array over the extended reals. -/
def matProd {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply {M K N : Nat} (x : (⟨2, ![M, K]⟩ : Shape).Idx → EReal) (w : (⟨2, ![K, N]⟩ : Shape).Idx → EReal)
    (r : Fin M) (j : Fin N) : matProd x w (ix2 r j) = ∑ k : Fin K, x (ix2 r k) * w (ix2 k j) := rfl

/-- The rectifier, entry by entry: the maximum with the value of the zero word. -/
def relu {s : Shape} (x : s.Idx → EReal) : s.Idx → EReal := fun i => max (x i) (Ideal.ofBits .f32 0x00000000#32)

theorem relu_apply {s : Shape} (x : s.Idx → EReal) (i : s.Idx) : relu x i = max (x i) (Ideal.ofBits .f32 0x00000000#32) := rfl

/-- The value of the word both programs start a row maximum from: −∞. -/
def negInf : EReal := Ideal.ofBits .f32 0xFF800000#32

/-- The classifier's logits: the pooled rows times the weights, the bias row added. -/
def headLogits (p : (⟨2, ![1000, 64]⟩ : Shape).Idx → EReal) (w : (⟨2, ![64, 4]⟩ : Shape).Idx → EReal)
    (b : (⟨1, ![4]⟩ : Shape).Idx → EReal) : (⟨2, ![1000, 4]⟩ : Shape).Idx → EReal :=
  fun i => matProd p w i + b (ix1 (i 1))

/-- A row's maximum, folded from −∞ over its four entries and taken once more against −∞. -/
def rowMax (z : (⟨2, ![1000, 4]⟩ : Shape).Idx → EReal) (r : Fin 1000) : EReal :=
  max negInf ((Finset.univ : Finset (Fin 4)).fold max negInf (fun j => z (ix2 r j)))

/-- The logarithm of the softmax along each row of four. -/
def logSoftmax (z : (⟨2, ![1000, 4]⟩ : Shape).Idx → EReal) : (⟨2, ![1000, 4]⟩ : Shape).Idx → EReal :=
  fun i => (z i - rowMax z (i 0)) - Ideal.log (∑ j : Fin 4, Ideal.exp (z (ix2 (i 0) j) - rowMax z (i 0)))

theorem logSoftmax_apply (z : (⟨2, ![1000, 4]⟩ : Shape).Idx → EReal) (r : Fin 1000) (q : Fin 4) :
    logSoftmax z (ix2 r q) = (z (ix2 r q) - rowMax z r) - Ideal.log (∑ j : Fin 4, Ideal.exp (z (ix2 r j) - rowMax z r)) := rfl

/-- The classifier head: log-softmax of the logits. -/
def head (p : (⟨2, ![1000, 64]⟩ : Shape).Idx → EReal) (w : (⟨2, ![64, 4]⟩ : Shape).Idx → EReal)
    (b : (⟨1, ![4]⟩ : Shape).Idx → EReal) : (⟨2, ![1000, 4]⟩ : Shape).Idx → EReal :=
  logSoftmax (headLogits p w b)

end Cert.Spec

end
-- ==== Proof.Linear0.lean ====
/-
  The first dense stage: the node features times the first weight matrix.

  The kernel walks the 100,000 rows in 20 blocks of 5,000; at each block it loads the rows' 256 features and the
  whole 256×128 weight matrix, multiplies them into a zero accumulator (the changes of float format are the
  identity over the extended reals) and stores the 5,000×128 result as that block of the output. Entry (r, j) of
  the block is the sum over k of x(r, k) · w(k, j), so the block at point t is rows 5000·t … 5000·t + 4999 of the
  whole product, and the twenty blocks tile the output: the output array ends holding the product of the two
  arrays the stage found.
-/
import proofs.«128362_j10969346474784_1_alg».proof.Proof.Gen.KernelIdeal.Frame
import proofs.«128362_j10969346474784_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Linear0

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (r, j) of what the body stores: the sum over k of the loaded rows' (r, k) times the weights' (k, j). -/
theorem pay_apply (x0 : Vec Ideal S5000x256 .f32) (x1 : Vec Ideal S256x128 .f32) (i : S5000x128.Idx) :
    k0_pay1 (F := Ideal) x0 x1 i = ∑ k : Fin 256, x0 (ix2 (i 0) k) * x1 (ix2 k (i 1)) := by
  unfold k0_pay1
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx i ((contrEquiv1 dot_S5000x256_S256x128_S5000x128_1_0_0_1_n_n 256 rfl rfl).symm k) = ix2 (i 0) k := funext fun a => Fin.ext (by
    match a with
    | ⟨0, _⟩ => exact lhs_0 _ _
    | ⟨1, _⟩ => exact (lhs_1 _ _).trans hk)
  have er : dot_S5000x256_S256x128_S5000x128_1_0_0_1_n_n.rhsIdx i ((contrEquiv1 dot_S5000x256_S256x128_S5000x128_1_0_0_1_n_n 256 rfl rfl).symm k) = ix2 k (i 1) := funext fun a => Fin.ext (by
    match a with
    | ⟨0, _⟩ => exact (rhs_0 _ _).trans hk
    | ⟨1, _⟩ => exact rhs_1 _ _)
  rw [el, er]
  rfl

/-! ## From the blocks to the array -/

section Array

variable (V : (c : Dev nD) → (b : Ref sig .tc) → Buf (Elt Ideal) ((c : Thread nD τ).loc b))

theorem hz : (![0, 0] : Fin 2 → Nat) = fun _ => 0 := funext fun a => by fin_cases a <;> rfl

/-- Where the windows' blocks sit at grid point t: the rows' and the output's at block row t, the weights' at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two arrays the stage finds: the node features and the weights. -/
abbrev xarr (c : Dev nD) : Vec Ideal S100000x256 .f32 := V c main_arg0
abbrev warr (c : Dev nD) : Vec Ideal S256x128 .f32 := V c main_arg3

/-- Their product. -/
abbrev G (c : Dev nD) : Vec Ideal S100000x128 .f32 := Cert.Spec.matProd (xarr V c) (warr V c)

/-- What point t writes back is block t of the product. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x128) hz]
  obtain ⟨e00, e01, e10, e11, e20, e21⟩ := idx_facts t
  funext j
  refine (pay_apply _ _ _).trans ?_
  rw [View.read_apply]
  show _ = ∑ k : Fin 256, xarr V c (ix2 ((((cfg0.win 2).blk t).view.emb j) 0) k) * warr V c (ix2 k ((((cfg0.win 2).blk t).view.emb j) 1))
  refine Finset.sum_congr rfl fun k _ => ?_
  have h0 : iblk0 V c 0 t (ix2 (j 0) k) = xarr V c (ix2 ((((cfg0.win 2).blk t).view.emb j) 0) k) := by
    unfold iblk0
    rw [View.read_apply]
    show V c main_arg0 _ = V c main_arg0 _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : iblk0 V c 1 t (ix2 k (j 1)) = warr V c (ix2 k ((((cfg0.win 2).blk t).view.emb j) 1)) := by
    unfold iblk0
    rw [View.read_apply]
    show V c main_arg3 _ = V c main_arg3 _
    congr 1
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [h0, h1]

/-- An index of the output is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Row r of the output is in the block of point r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by omega⟩, flush0_2 _, ?_⟩
  rw [mem_blk]
  obtain ⟨-, -, -, -, e20, e21⟩ := idx_facts ⟨(i 0).val / 5000, by omega⟩
  intro a
  match a with
  | ⟨0, _⟩ => show win0_2.index _ (0 : Fin 2) * 5000 ≤ (i 0).val ∧ (i 0).val < win0_2.index _ (0 : Fin 2) * 5000 + 5000; rw [e20]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e21]; omega

/-- The output array after the stage: the product of the two arrays it found. -/
theorem array0 (c : Dev nD) : (dat0 (F := Ideal) V c).arrAt 2 cfg0.N = Cert.Spec.matProd (xarr V c) (warr V c) :=
  (dat0 (F := Ideal) V c).arrAt_eq_of_cover 2 (G V c) (fun t _ => flushed_eq V c t) (cover)

end Array

end Cert.KernelIdeal.Linear0

end
-- ==== Proof.Linear1.lean ====
/-
  The second dense stage: the rectified first layer times the second weight matrix.

  The kernel walks the 100,000 rows in 20 blocks of 5,000; at each block it loads the rows' 128 features, takes
  their maximum with a splat of the zero word (the rectifier, fused into the load), loads the whole 128×64
  weight matrix and multiplies into a zero accumulator (the changes of float format are the identity over the
  extended reals). Entry (r, j) of the block is the sum over k of max(h(r, k), 0) · w(k, j), so the block at
  point t is rows 5000·t … 5000·t + 4999 of the product of the rectified rows with the weights, and the twenty
  blocks tile the output.
-/
import proofs.«128362_j10969346474784_1_alg».proof.Proof.Gen.KernelIdeal.Frame
import proofs.«128362_j10969346474784_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Linear1

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (r, j) of what the body stores: the sum over k of the rectified rows' (r, k) times the weights' (k, j). -/
theorem pay_apply (x0 : Vec Ideal S5000x128 .f32) (x1 : Vec Ideal S128x64 .f32) (i : S5000x64.Idx) :
    k1_pay1 (F := Ideal) x0 x1 i = ∑ k : Fin 128, max (x0 (ix2 (i 0) k)) (Ideal.ofBits .f32 0x00000000#32) * x1 (ix2 k (i 1)) := by
  unfold k1_pay1
  simp only [matmul, shapeCast_self]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx i ((contrEquiv1 dot_S5000x128_S128x64_S5000x64_1_0_0_1_n_n 128 rfl rfl).symm k) = ix2 (i 0) k := funext fun a => Fin.ext (by
    match a with
    | ⟨0, _⟩ => exact lhs_0 _ _
    | ⟨1, _⟩ => exact (lhs_1 _ _).trans hk)
  have er : dot_S5000x128_S128x64_S5000x64_1_0_0_1_n_n.rhsIdx i ((contrEquiv1 dot_S5000x128_S128x64_S5000x64_1_0_0_1_n_n 128 rfl rfl).symm k) = ix2 k (i 1) := funext fun a => Fin.ext (by
    match a with
    | ⟨0, _⟩ => exact (rhs_0 _ _).trans hk
    | ⟨1, _⟩ => exact rhs_1 _ _)
  rw [el, er]
  rfl

/-! ## From the blocks to the array -/

section Array

variable (V : (c : Dev nD) → (b : Ref sig .tc) → Buf (Elt Ideal) ((c : Thread nD τ).loc b))

theorem hz : (![0, 0] : Fin 2 → Nat) = fun _ => 0 := funext fun a => by fin_cases a <;> rfl

/-- Where the windows' blocks sit at grid point t: the rows' and the output's at block row t, the weights' at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The two arrays the stage finds: the first layer's rows and the weights. -/
abbrev xarr (c : Dev nD) : Vec Ideal S100000x128 .f32 := V c main_v51
abbrev warr (c : Dev nD) : Vec Ideal S128x64 .f32 := V c main_arg5

/-- The product of the rectified rows with the weights. -/
abbrev G (c : Dev nD) : Vec Ideal S100000x64 .f32 := Cert.Spec.matProd (Cert.Spec.relu (xarr V c)) (warr V c)

/-- What point t writes back is block t of the product. -/
theorem flushed_eq (c : Dev nD) (t : Fin cfg1.N) :
    (dat1 (F := Ideal) V c).flushed 2 t = ((cfg1.win 2).blk t).view.read (Elt Ideal) (G V c) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S128x64) hz]
  obtain ⟨e00, e01, e10, e11, e20, e21⟩ := idx_facts t
  funext j
  refine (pay_apply _ _ _).trans ?_
  rw [View.read_apply]
  show _ = ∑ k : Fin 128, Cert.Spec.relu (xarr V c) (ix2 ((((cfg1.win 2).blk t).view.emb j) 0) k) * warr V c (ix2 k ((((cfg1.win 2).blk t).view.emb j) 1))
  refine Finset.sum_congr rfl fun k _ => ?_
  have h0 : iblk1 V c 0 t (ix2 (j 0) k) = xarr V c (ix2 ((((cfg1.win 2).blk t).view.emb j) 0) k) := by
    unfold iblk1
    rw [View.read_apply]
    show V c main_v51 _ = V c main_v51 _
    congr 1
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : iblk1 V c 1 t (ix2 k (j 1)) = warr V c (ix2 k ((((cfg1.win 2).blk t).view.emb j) 1)) := by
    unfold iblk1
    rw [View.read_apply]
    show V c main_arg5 _ = V c main_arg5 _
    congr 1
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  rw [h0, h1]
  rfl

/-- An index of the output is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v52).slice (win1_2.rect t)).set ↔ _
  rw [View.set_slice_whole, Rect.mem_set_unit]
  exact Iff.rfl

/-- Row r of the output is in the block of point r / 5000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by omega⟩, flush1_2 _, ?_⟩
  rw [mem_blk]
  obtain ⟨-, -, -, -, e20, e21⟩ := idx_facts ⟨(i 0).val / 5000, by omega⟩
  intro a
  match a with
  | ⟨0, _⟩ => show win1_2.index _ (0 : Fin 2) * 5000 ≤ (i 0).val ∧ (i 0).val < win1_2.index _ (0 : Fin 2) * 5000 + 5000; rw [e20]; show (i 0).val / 5000 * 5000 ≤ (i 0).val ∧ (i 0).val < (i 0).val / 5000 * 5000 + 5000; omega
  | ⟨1, _⟩ => show win1_2.index _ (1 : Fin 2) * 64 ≤ (i 1).val ∧ (i 1).val < win1_2.index _ (1 : Fin 2) * 64 + 64; rw [e21]; omega

/-- The output array after the stage: the product of the rectified rows it found with the weights. -/
theorem array1 (c : Dev nD) : (dat1 (F := Ideal) V c).arrAt 2 cfg1.N = Cert.Spec.matProd (Cert.Spec.relu (xarr V c)) (warr V c) :=
  (dat1 (F := Ideal) V c).arrAt_eq_of_cover 2 (G V c) (fun t _ => flushed_eq V c t) (cover)

end Array

end Cert.KernelIdeal.Linear1

end
-- ==== Proof.Head.lean ====
/-
  The classifier head (the third region of the kernel program), at the ideal values.

  The body loads the pooled rows p (1000×64), the weights w (64×4) and the bias b (4); forms p·w into a zero
  accumulator (the truncations to the narrower format are the identity on the extended reals) plus the bias row, cast
  to a one-row matrix and broadcast over the rows; and takes the logarithm of the softmax along each row of four:
  the row's maximum folded from −∞ and taken once more against −∞, cast to a column and broadcast over the lanes,
  subtracted; the exponential; the row's sum from the zero word, cast to a column; its logarithm, broadcast and
  subtracted. Read index by index this is `Cert.Spec.head p w b`:
    • each operation that is not entry-by-entry is read at an index (r, q) or r by one small lemma — the two column
      forms of a cast and a broadcast, the matmul as a sum over the 64 contracted coordinates, the lane sum and the
      lane maximum as a sum and a fold over the row's four lanes;
    • the payload splits into the logits and the log-softmax of the logits, each equal to the specification's;
    • the grid has one point and every window's block is its whole array, so what the point writes back is the
      payload of the three arrays as the region finds them, and the output array ends holding it.
-/
import proofs.«128362_j10969346474784_1_alg».proof.Proof.Gen.KernelIdeal.Frame
import proofs.«128362_j10969346474784_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadValue

open Cert.KernelIdeal Cert.KernelIdeal.Gen Idealize.ShloMosaic Idealize.ShloMosaic.TcCoe Idealize.SL.Sem
open Idealize.ShloMosaic.Pipeline (Dat)
open Idealize.ShloMosaic.ValueIdx

/-! ## A column: a vector cast to one, and a column broadcast over the lanes -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of the pooled rows and the weights -/

theorem lhs_axis0 (i : S1000x4.Idx) (q : dot_S1000x64_S64x4_S1000x4_1_0_0_1_n_n.contr.Idx) :
    (dot_S1000x64_S64x4_S1000x4_1_0_0_1_n_n.lhsIdx i q 0).val = (i 0).val := by
  unfold DotDims.lhsIdx
  rw [dif_neg (show ¬(0 : Fin S1000x64.rank) ∈ dot_S1000x64_S64x4_S1000x4_1_0_0_1_n_n.lhsBatch by decide), dif_pos (show (0 : Fin S1000x64.rank) ∈ dot_S1000x64_S64x4_S1000x4_1_0_0_1_n_n.lhsNonContracting by decide)]
  rfl
theorem lhs_axis1 (i : S1000x4.Idx) (q : dot_S1000x64_S64x4_S1000x4_1_0_0_1_n_n.contr.Idx) :
    (dot_S1000x64_S64x4_S1000x4_1_0_0_1_n_n.lhsIdx i q 1).val = (q ⟨0, by decide⟩).val :=
  dot_S1000x64_S64x4_S1000x4_1_0_0_1_n_n.lhsIdx_val_of_single rfl i q
theorem rhs_axis0 (i : S1000x4.Idx) (q : dot_S1000x64_S64x4_S1000x4_1_0_0_1_n_n.contr.Idx) :
    (dot_S1000x64_S64x4_S1000x4_1_0_0_1_n_n.rhsIdx i q 0).val = (q ⟨0, by decide⟩).val :=
  dot_S1000x64_S64x4_S1000x4_1_0_0_1_n_n.rhsIdx_val_of_single rfl i q
theorem rhs_axis1 (i : S1000x4.Idx) (q : dot_S1000x64_S64x4_S1000x4_1_0_0_1_n_n.contr.Idx) :
    (dot_S1000x64_S64x4_S1000x4_1_0_0_1_n_n.rhsIdx i q 1).val = (i 1).val := by
  unfold DotDims.rhsIdx
  rw [dif_neg (show ¬(1 : Fin S64x4.rank) ∈ dot_S1000x64_S64x4_S1000x4_1_0_0_1_n_n.rhsBatch by decide), dif_pos (show (1 : Fin S64x4.rank) ∈ dot_S1000x64_S64x4_S1000x4_1_0_0_1_n_n.rhsNonContracting by decide)]
  rfl

/-- The matmul into the zero accumulator, at `(r, q)`: the sum over the 64 contracted coordinates. -/
theorem head_matmul_apply (a : FVec Ideal S1000x64 .bf16) (b : FVec Ideal S64x4 .bf16) (r : Fin 1000) (q : Fin 4) :
    matmul dot_S1000x64_S64x4_S1000x4_1_0_0_1_n_n none a b (constant (F := Ideal) S1000x4 .f32 0x00000000#32) (ix2 r q)
      = ∑ k : Fin 64, a (ix2 r k) * b (ix2 k q) := by
  simp only [matmul]
  rw [Ideal.matmul_constant_zero_apply, ← Equiv.sum_comp (contrEquiv1 dot_S1000x64_S64x4_S1000x4_1_0_0_1_n_n 64 rfl rfl).symm]
  refine Finset.sum_congr rfl fun k _ => ?_
  have hk := contrEquiv1_symm_val dot_S1000x64_S64x4_S1000x4_1_0_0_1_n_n 64 rfl rfl k
  have el : dot_S1000x64_S64x4_S1000x4_1_0_0_1_n_n.lhsIdx (ix2 r q) ((contrEquiv1 dot_S1000x64_S64x4_S1000x4_1_0_0_1_n_n 64 rfl rfl).symm k) = ix2 r k := funext fun a => Fin.ext (by
    match a with
    | ⟨0, _⟩ => exact lhs_axis0 _ _
    | ⟨1, _⟩ => exact (lhs_axis1 _ _).trans hk)
  have er : dot_S1000x64_S64x4_S1000x4_1_0_0_1_n_n.rhsIdx (ix2 r q) ((contrEquiv1 dot_S1000x64_S64x4_S1000x4_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## The two reductions along a row of four -/

/-- The index over row `r` with lane `k` put back. -/
theorem lift_row (h : S1000x4.Reduces [1] S1000) (r : Fin 1000) (k : Fin (S1000x4.size 1)) :
    h.lift (ix1 r) k = ix2 r k :=
  funext fun c => Fin.ext (by match c with | ⟨0, _⟩ => rfl | ⟨1, _⟩ => rfl)

/-- The lane sum from the zero word, at row `r`: the sum of the row's four entries. -/
theorem rowSum_apply (src : FVec Ideal S1000x4 .f32) (r : Fin 1000) :
    multiReduction (F := Ideal) .add [1] S1000 src 0x00000000#32 reduces_S1000x4_S1000 (.inl rfl) rfl (ix1 r)
      = ∑ j : Fin 4, src (ix2 r j) := by
  refine (Ideal.multiReduction_add_single src 0x00000000#32 reduces_S1000x4_S1000 (.inl rfl) rfl (ix1 r)).trans ?_
  exact Finset.sum_congr rfl fun k _ => congrArg src (lift_row _ r k)

/-- The lane maximum from the word of −∞, at row `r`: the fold of `max` over the row's four entries. -/
theorem rowMax_apply (src : FVec Ideal S1000x4 .f32) (r : Fin 1000) :
    multiReduction (F := Ideal) .maximumf [1] S1000 src 0xFF800000#32 reduces_S1000x4_S1000 (.inl rfl) rfl (ix1 r)
      = (Finset.univ : Finset (Fin 4)).fold max (Ideal.ofBits .f32 0xFF800000#32) (fun j => src (ix2 r j)) := by
  refine (Ideal.multiReduction_maximumf_single src 0xFF800000#32 reduces_S1000x4_S1000 (.inl rfl) rfl (ix1 r)).trans ?_
  exact congrArg (fun f => Finset.fold max (Ideal.ofBits .f32 0xFF800000#32) f (Finset.univ : Finset (Fin 4)))
    (funext fun k => congrArg src (lift_row _ r k))

/-! ## The payload in two parts: the logits, then the logarithm of the softmax along each row -/

/-- The logits as the body forms them: the product into the zero accumulator, the bias row added. -/
def logitsK (x0 : Vec Ideal S1000x64 .f32) (x3 : Vec Ideal S64x4 .f32) (x6 : Vec Ideal S4 .f32) : FVec Ideal S1000x4 .f32 :=
  addf (matmul dot_S1000x64_S64x4_S1000x4_1_0_0_1_n_n none
      (truncf .bf16 (shapeCast S1000x64 x0 shapeCasts_S1000x64_S1000x64) bitsLt_bf16_f32)
      (truncf .bf16 x3 bitsLt_bf16_f32) (constant S1000x4 .f32 0x00000000#32))
    (broadcastTo S1000x4 (shapeCast S1x4 x6 shapeCasts_S4_S1x4) broadcasts_S1x4_S1000x4)

/-- Each row's maximum as the body forms it: the lane maximum from −∞, once more against −∞. -/
def rowMaxK (z : FVec Ideal S1000x4 .f32) : FVec Ideal S1000 .f32 :=
  maximumf (broadcast S1000 (Scalar.ofBits (F := Ideal) .f32 0xFF800000#32))
    (multiReduction .maximumf [1] S1000 z 0xFF800000#32 reduces_S1000x4_S1000 (.inl rfl) rfl)

/-- The logits less their row's maximum. -/
def shiftK (z : FVec Ideal S1000x4 .f32) : FVec Ideal S1000x4 .f32 :=
  subf z (broadcastTo S1000x4 (shapeCast S1000x1 (rowMaxK z) shapeCasts_S1000_S1000x1) broadcasts_S1000x1_S1000x4)

/-- The shifted logits less the logarithm of their row's sum of exponentials. -/
def lsmK (z : FVec Ideal S1000x4 .f32) : FVec Ideal S1000x4 .f32 :=
  subf (shiftK z) (broadcastTo S1000x4 (log (shapeCast S1000x1
    (multiReduction .add [1] S1000 (exp (shiftK z)) 0x00000000#32 reduces_S1000x4_S1000 (.inl rfl) rfl)
    shapeCasts_S1000_S1000x1)) broadcasts_S1000x1_S1000x4)

/-- The body's payload is the second part of the first. -/
theorem pay_split (x0 : Vec Ideal S1000x64 .f32) (x3 : Vec Ideal S64x4 .f32) (x6 : Vec Ideal S4 .f32) :
    k2_pay1 (F := Ideal) x0 x3 x6 = lsmK (logitsK x0 x3 x6) := rfl

theorem logitsK_apply (x0 : Vec Ideal S1000x64 .f32) (x3 : Vec Ideal S64x4 .f32) (x6 : Vec Ideal S4 .f32) (r : Fin 1000) (q : Fin 4) :
    logitsK x0 x3 x6 (ix2 r q) = (∑ k : Fin 64, x0 (ix2 r k) * x3 (ix2 k q)) + x6 (ix1 q) := by
  unfold logitsK
  refine (addf_apply _ _ _).trans ?_
  refine congrArg₂ (· + ·) ?_ ?_
  · refine (head_matmul_apply _ _ r q).trans ?_
    refine Finset.sum_congr rfl fun k _ => ?_
    rw [truncf_apply, truncf_apply, shapeCast_self]
  · rw [broadcastTo_1b_ab_apply, shapeCast_a_1a_apply]

theorem rowMaxK_apply (z : FVec Ideal S1000x4 .f32) (r : Fin 1000) :
    rowMaxK z (ix1 r) = max (Ideal.ofBits .f32 0xFF800000#32)
      ((Finset.univ : Finset (Fin 4)).fold max (Ideal.ofBits .f32 0xFF800000#32) (fun j => z (ix2 r j))) := by
  unfold rowMaxK
  refine (maximumf_apply _ _ _).trans ?_
  rw [rowMax_apply]
  rfl

theorem shiftK_apply (z : FVec Ideal S1000x4 .f32) (r : Fin 1000) (q : Fin 4) :
    shiftK z (ix2 r q) = z (ix2 r q) - rowMaxK z (ix1 r) := by
  unfold shiftK
  refine (subf_apply _ _ _).trans ?_
  rw [broadcastTo_a1_ab_apply, shapeCast_a_a1_apply]

theorem lsmK_apply (z : FVec Ideal S1000x4 .f32) (r : Fin 1000) (q : Fin 4) :
    lsmK z (ix2 r q) = shiftK z (ix2 r q) - Ideal.log (∑ j : Fin 4, Ideal.exp (shiftK z (ix2 r j))) := by
  unfold lsmK
  refine (subf_apply _ _ _).trans ?_
  rw [broadcastTo_a1_ab_apply]
  show _ - Ideal.log (shapeCast S1000x1 _ shapeCasts_S1000_S1000x1 (ix2 r (0 : Fin 1))) = _
  rw [shapeCast_a_a1_apply, rowSum_apply]
  rfl

/-! ## The payload is the specification's head -/

/-- The logits the body forms are the specification's. -/
theorem logitsK_eq (x0 : Vec Ideal S1000x64 .f32) (x3 : Vec Ideal S64x4 .f32) (x6 : Vec Ideal S4 .f32) :
    logitsK x0 x3 x6 = Cert.Spec.headLogits x0 x3 x6 := by
  funext i
  obtain ⟨r, q, rfl⟩ : ∃ (r : Fin 1000) (q : Fin 4), i = ix2 r q := ⟨i 0, i 1, eq_ix2 i⟩
  exact logitsK_apply x0 x3 x6 r q

/-- The body's shifted logits, exponentials, row sums and logarithm are the specification's log-softmax. -/
theorem lsmK_eq (z : FVec Ideal S1000x4 .f32) : lsmK z = Cert.Spec.logSoftmax z := by
  funext i
  obtain ⟨r, q, rfl⟩ : ∃ (r : Fin 1000) (q : Fin 4), i = ix2 r q := ⟨i 0, i 1, eq_ix2 i⟩
  rw [lsmK_apply, Cert.Spec.logSoftmax_apply]
  simp only [shiftK_apply, rowMaxK_apply]
  rfl

/-- The payload of the head's body is the specification's head of the three loaded arrays. -/
theorem pay_eq (x0 : Vec Ideal S1000x64 .f32) (x3 : Vec Ideal S64x4 .f32) (x6 : Vec Ideal S4 .f32) :
    k2_pay1 (F := Ideal) x0 x3 x6 = Cert.Spec.head x0 x3 x6 := by
  rw [pay_split, logitsK_eq, lsmK_eq]
  rfl

/-- The same, index by index. -/
theorem pay_apply (x0 : Vec Ideal S1000x64 .f32) (x3 : Vec Ideal S64x4 .f32) (x6 : Vec Ideal S4 .f32) (r : Fin 1000) (q : Fin 4) :
    k2_pay1 (F := Ideal) x0 x3 x6 (ix2 r q) = Cert.Spec.head x0 x3 x6 (ix2 r q) :=
  congrFun (pay_eq x0 x3 x6) (ix2 r q)

/-! ## From the one point's block to the array -/

theorem zero_off2 : (![0, 0] : Fin 2 → Nat) = fun _ => 0 := funext fun a => by fin_cases a <;> rfl
theorem zero_off1 : (![0] : Fin 1 → Nat) = fun _ => 0 := funext fun a => by fin_cases a; rfl

/-- The body stores its payload of the three loaded buffers over the whole output buffer. -/
theorem out_eq_pay (x0 : Vec Ideal S1000x64 .f32) (x1 : Vec Ideal S64x4 .f32) (x2 : Vec Ideal S4 .f32) :
    out2_3 (F := Ideal) x0 x1 x2 = k2_pay1 (F := Ideal) x0 x1 x2 := by
  unfold out2_3
  rw [View.canon_unit_zero zero_off2]
  simp only [View.ld_unit_zero (S := S1000x64) zero_off2, View.ld_unit_zero (S := S64x4) zero_off2, View.ld_unit_zero (S := S4) zero_off1]

/-- Every window's block index is zero at every point of the one-point grid. -/
theorem block_index_zero : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0 :=
  (by decide +kernel : ∀ t : Fin grid2.N, _)

variable (V : (c : Dev nD) → (b : Ref sig .tc) → Buf (Elt Ideal) ((c : Thread nD τ).loc b))

/-- The pooled rows' block is their whole array. -/
theorem iblk_pooled (c : Dev nD) (t : Fin cfg2.N) :
    (iblk2 (F := Ideal) V c 0 t : Vec Ideal S1000x64 .f32) = (V c main_v80 : S1000x64.Idx → EReal) := by
  obtain ⟨e0, e1, -⟩ := block_index_zero t
  unfold iblk2
  funext y
  rw [View.read_apply]
  show V c main_v80 _ = V c main_v80 y
  congr 1
  funext a
  apply Fin.ext
  match a with
  | ⟨0, _⟩ => show win2_0.index t (0 : Fin 2) * 1000 + 1 * (y 0).val = (y 0).val; rw [e0]; omega
  | ⟨1, _⟩ => show win2_0.index t (1 : Fin 2) * 64 + 1 * (y 1).val = (y 1).val; rw [e1]; omega

/-- The weights' block is their whole array. -/
theorem iblk_weights (c : Dev nD) (t : Fin cfg2.N) :
    (iblk2 (F := Ideal) V c 1 t : Vec Ideal S64x4 .f32) = (V c main_arg7 : S64x4.Idx → EReal) := by
  obtain ⟨-, -, e0, e1, -⟩ := block_index_zero t
  unfold iblk2
  funext y
  rw [View.read_apply]
  show V c main_arg7 _ = V c main_arg7 y
  congr 1
  funext a
  apply Fin.ext
  match a with
  | ⟨0, _⟩ => show win2_1.index t (0 : Fin 2) * 64 + 1 * (y 0).val = (y 0).val; rw [e0]; omega
  | ⟨1, _⟩ => show win2_1.index t (1 : Fin 2) * 4 + 1 * (y 1).val = (y 1).val; rw [e1]; omega

/-- The bias's block is its whole array. -/
theorem iblk_bias (c : Dev nD) (t : Fin cfg2.N) :
    (iblk2 (F := Ideal) V c 2 t : Vec Ideal S4 .f32) = (V c main_arg8 : S4.Idx → EReal) := by
  obtain ⟨-, -, -, -, e0, -⟩ := block_index_zero t
  unfold iblk2
  funext y
  rw [View.read_apply]
  show V c main_arg8 _ = V c main_arg8 y
  congr 1
  funext a
  apply Fin.ext
  match a with
  | ⟨0, _⟩ => show win2_2.index t (0 : Fin 1) * 4 + 1 * (y 0).val = (y 0).val; rw [e0]; omega

/-- What the point writes back is the payload of the three entry arrays, read through the output's block. -/
theorem flushed_eq_pay (c : Dev nD) (t : Fin cfg2.N) :
    (dat2 (F := Ideal) V c).flushed 3 t = ((cfg2.win 3).blk t).view.read (Elt Ideal)
      (k2_pay1 (F := Ideal) (V c main_v80 : S1000x64.Idx → EReal) (V c main_arg7 : S64x4.Idx → EReal) (V c main_arg8 : S4.Idx → EReal)) := by
  show (cfg2.win 3).cut (grid2.coords t) ((dat2 V c).after 3 t) = _
  rw [after2_3, out_eq_pay, iblk_pooled, iblk_weights, iblk_bias]
  obtain ⟨-, -, -, -, -, e0, e1⟩ := block_index_zero t
  funext y
  rw [View.read_apply]
  show k2_pay1 (F := Ideal) (V c main_v80) (V c main_arg7) (V c main_arg8) y = k2_pay1 (F := Ideal) (V c main_v80) (V c main_arg7) (V c main_arg8) _
  congr 1
  funext a
  apply Fin.ext
  match a with
  | ⟨0, _⟩ => show (y 0).val = win2_3.index t (0 : Fin 2) * 1000 + 1 * (y 0).val; rw [e0]; omega
  | ⟨1, _⟩ => show (y 1).val = win2_3.index t (1 : Fin 2) * 4 + 1 * (y 1).val; rw [e1]; omega

/-- The output array after the region is the payload of the three entry arrays: the one point's block is the
    whole array, and that point writes it back. -/
theorem array2_pay (c : Dev nD) :
    (dat2 (F := Ideal) V c).arrAt 3 cfg2.N
      = k2_pay1 (F := Ideal) (V c main_v80 : S1000x64.Idx → EReal) (V c main_arg7 : S64x4.Idx → EReal) (V c main_arg8 : S4.Idx → EReal) :=
  (dat2 (F := Ideal) V c).arrAt_eq_of_cover 3 _ (fun t _ => flushed_eq_pay V c t) fun i =>
    ⟨t2_0, flush2_3 t2_0, by
      show i ∈ ((View.whole main_v81).slice (win2_3.rect t2_0)).set
      rw [View.set_slice_whole, Rect.mem_set_unit]
      intro a
      obtain ⟨-, -, -, -, -, e0, e1⟩ := block_index_zero t2_0
      have h0 : (i 0 : Nat) < 1000 := (i 0).isLt
      have h1 : (i 1 : Nat) < 4 := (i 1).isLt
      match a with
      | ⟨0, _⟩ =>
        show win2_3.index t2_0 (0 : Fin 2) * 1000 ≤ (i 0 : Nat) ∧ (i 0 : Nat) < win2_3.index t2_0 (0 : Fin 2) * 1000 + 1000
        rw [e0]; omega
      | ⟨1, _⟩ =>
        show win2_3.index t2_0 (1 : Fin 2) * 4 ≤ (i 1 : Nat) ∧ (i 1 : Nat) < win2_3.index t2_0 (1 : Fin 2) * 4 + 4
        rw [e1]; omega⟩

/-- THE HEAD REGION'S OUTPUT: the array of output window 3 after the region is the specification's head of the
    pooled rows, the weights and the bias as the region finds them. -/
theorem array2 (c : Dev nD) :
    (dat2 (F := Ideal) V c).arrAt 3 cfg2.N
      = Cert.Spec.head (V c main_v80 : S1000x64.Idx → EReal) (V c main_arg7 : S64x4.Idx → EReal) (V c main_arg8 : S4.Idx → EReal) :=
  (array2_pay V c).trans (pay_eq _ _ _)

end Cert.KernelIdeal.HeadValue

end
-- ==== Proof.RefStages.lean ====
/-
  The reference's host side is the same functions of the same arrays.

  Around its three dense products the reference applies, operation for operation, the host operations the
  kernel's program applies around its dense stages: the edge lists with self loops, the degrees and the edge
  weights (recomputed for the second layer, from the same edge list, hence equal), the two aggregations and
  the mean pool. Each stage of the reference is therefore the shared stage function of the stage before it.
-/
import proofs.«128362_j10969346474784_1_alg».proof.Proof.ReferenceRead
import proofs.«128362_j10969346474784_1_alg».proof.Proof.Stages

set_option maxRecDepth 16384

noncomputable section

namespace Cert.ReferenceIdeal.StageValue

open Cert.ReferenceIdeal Cert.ReferenceIdeal.ReadP Idealize.ShloMosaic
open Cert.KernelIdeal.Stage

variable {F : FTy → Type} [FloatOps F]

/-- The first layer's output before the rectifier: the first product aggregated over the edges, the bias added. -/
theorem ref_h1 (x0 : (⟨S100000x256, .f32⟩ : BufTy).Contents (Elt F)) (x1 : (⟨S2x1600000, .i32⟩ : BufTy).Contents (Elt F)) (x3 : (⟨S256x128, .f32⟩ : BufTy).Contents (Elt F)) (x4 : (⟨S128, .f32⟩ : BufTy).Contents (Elt F)) :
    val_main_v51 (F := F) x0 x1 x3 x4 = aggregate128 (val_main_v0 (F := F) x0 x3) x1 x4 := rfl

/-- The pooled rows: the second product aggregated over the edges, the bias added, pooled per graph. -/
theorem ref_pooled (x0 : (⟨S100000x256, .f32⟩ : BufTy).Contents (Elt F)) (x1 : (⟨S2x1600000, .i32⟩ : BufTy).Contents (Elt F)) (x2 : (⟨S100000, .i32⟩ : BufTy).Contents (Elt F)) (x3 : (⟨S256x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) :
    val_main_v116 (F := F) x0 x1 x2 x3 x4 x5 x6
      = meanPool (aggregate64 (val_main_v53 (F := F) x0 x1 x3 x4 x5) x1 x6) x2 := rfl

end Cert.ReferenceIdeal.StageValue

end
-- ==== Proof.RefLinear.lean ====
/-
  The reference's dense products are the same sums.

  The reference's first product is the host's contraction of the node features with the first weight matrix,
  entry (r, j) the sum over k of x(r, k) · w(k, j); its second is the same contraction of the rectified first
  layer with the second weight matrix, the rectifier being the maximum with a splat of the zero word.
-/
import proofs.«128362_j10969346474784_1_alg».proof.Proof.ReferenceRead
import proofs.«128362_j10969346474784_1_alg».proof.Proof.Spec

set_option maxRecDepth 16384

noncomputable section

namespace Cert.ReferenceIdeal.LinearValue

open Cert.ReferenceIdeal Cert.ReferenceIdeal.ReadP Idealize.ShloMosaic Idealize.ShloMosaic.ValueIdx

theorem lidx0_eq (i : S100000x128.Idx) (k : Fin 256) : lidx_main_v0 i k = ix2 (i 0) k :=
  funext fun a => Fin.ext (by match a with | ⟨0, _⟩ => rfl | ⟨1, _⟩ => rfl)
theorem ridx0_eq (i : S100000x128.Idx) (k : Fin 256) : ridx_main_v0 i k = ix2 k (i 1) :=
  funext fun a => Fin.ext (by match a with | ⟨0, _⟩ => rfl | ⟨1, _⟩ => rfl)

/-- The reference's first product. -/
theorem ref_xw1 (x0 : (⟨S100000x256, .f32⟩ : BufTy).Contents (Elt Ideal)) (x3 : (⟨S256x128, .f32⟩ : BufTy).Contents (Elt Ideal)) :
    val_main_v0 (F := Ideal) x0 x3 = Cert.Spec.matProd (x0 : S100000x256.Idx → EReal) (x3 : S256x128.Idx → EReal) := by
  funext i
  rw [val_main_v0_apply]
  unfold Cert.Spec.matProd
  refine Finset.sum_congr rfl fun k _ => ?_
  rw [lidx0_eq, ridx0_eq]
  rfl

theorem lidx53_eq (i : S100000x64.Idx) (k : Fin 128) : lidx_main_v53 i k = ix2 (i 0) k :=
  funext fun a => Fin.ext (by match a with | ⟨0, _⟩ => rfl | ⟨1, _⟩ => rfl)
theorem ridx53_eq (i : S100000x64.Idx) (k : Fin 128) : ridx_main_v53 i k = ix2 k (i 1) :=
  funext fun a => Fin.ext (by match a with | ⟨0, _⟩ => rfl | ⟨1, _⟩ => rfl)

/-- The reference's rectified first layer. -/
theorem ref_relu (x0 : (⟨S100000x256, .f32⟩ : BufTy).Contents (Elt Ideal)) (x1 : (⟨S2x1600000, .i32⟩ : BufTy).Contents (Elt Ideal)) (x3 : (⟨S256x128, .f32⟩ : BufTy).Contents (Elt Ideal)) (x4 : (⟨S128, .f32⟩ : BufTy).Contents (Elt Ideal)) :
    val_main_v52 (F := Ideal) x0 x1 x3 x4 = Cert.Spec.relu (val_main_v51 (F := Ideal) x0 x1 x3 x4 : S100000x128.Idx → EReal) := by
  funext i
  rw [val_main_v52_apply, val_main_call1_v0_apply, val_main_call1_cst_apply]
  rfl

/-- The reference's second product. -/
theorem ref_xw2 (x0 : (⟨S100000x256, .f32⟩ : BufTy).Contents (Elt Ideal)) (x1 : (⟨S2x1600000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) :
    val_main_v53 (F := Ideal) x0 x1 x3 x4 x5
      = Cert.Spec.matProd (Cert.Spec.relu (val_main_v51 (F := Ideal) x0 x1 x3 x4 : S100000x128.Idx → EReal)) (x5 : S128x64.Idx → EReal) := by
  funext i
  rw [val_main_v53_apply, ref_relu]
  unfold Cert.Spec.matProd
  refine Finset.sum_congr rfl fun k _ => ?_
  rw [lidx53_eq, ridx53_eq]
  rfl

end Cert.ReferenceIdeal.LinearValue

end
-- ==== Proof.RefHead.lean ====
/-
  The reference's classifier head, at the ideal values.

  The reference multiplies the pooled rows by the weights with the host's dot_general, broadcasts the bias to a
  one-row matrix and then over the rows, adds, and applies its log-softmax inlined: the host's reduce with the maximum
  from −∞ along each row of four, the maximum once more against a −∞ broadcast, a broadcast to a column and over the
  lanes, a subtraction, the exponential, the host's sum from the zero word, a broadcast to a column, the logarithm, a
  broadcast over the lanes and a subtraction. Read index by index through the stages' own index lemmas this is
  `Cert.Spec.head` of the pooled rows' stage, the weights and the bias: the layout stages' index functions are the
  coordinates written out, the reduce with the maximum is the fold of `max` over the row's four lanes, and the host's
  sum is the zero word's value, which is 0, plus the sum over the lanes.
-/
import proofs.«128362_j10969346474784_1_alg».proof.Proof.ReferenceRead
import proofs.«128362_j10969346474784_1_alg».proof.Proof.Spec
import Idealize.ShloMosaic.Lib.ValueIdx
import Idealize.ShloMosaic.PureOps.Reduce
import Idealize.ShloMosaic.PureOps.Ideal.Laws

set_option maxRecDepth 16384

noncomputable section

namespace Cert.ReferenceIdeal.HeadValue

open Cert.ReferenceIdeal Cert.ReferenceIdeal.Gen Cert.ReferenceIdeal.ReadP Idealize.ShloMosaic
open Idealize.ShloMosaic.ValueIdx

/-! ## The layout stages' index functions, at an index given by its coordinates -/

theorem lidx_dot (r : Fin 1000) (q : Fin 4) (k : Fin 64) : lidx_main_v117 (ix2 r q) k = ix2 r k :=
  funext fun a => Fin.ext (by match a with | ⟨0, _⟩ => rfl | ⟨1, _⟩ => rfl)
theorem ridx_dot (r : Fin 1000) (q : Fin 4) (k : Fin 64) : ridx_main_v117 (ix2 r q) k = ix2 k q :=
  funext fun a => Fin.ext (by match a with | ⟨0, _⟩ => rfl | ⟨1, _⟩ => rfl)
theorem idx_biasRows (r : Fin 1000) (q : Fin 4) : idx_main_v119 (ix2 r q) = ix2 (0 : Fin 1) q :=
  funext fun a => Fin.ext (by match a with | ⟨0, _⟩ => rfl | ⟨1, _⟩ => rfl)
theorem idx_biasRow (u : Fin 1) (q : Fin 4) : idx_main_v118 (ix2 u q) = ix1 q :=
  funext fun a => Fin.ext (by match a with | ⟨0, _⟩ => rfl)
theorem idx_maxLanes (r : Fin 1000) (q : Fin 4) : idx_main_call3_v4 (ix2 r q) = ix2 r (0 : Fin 1) :=
  funext fun a => Fin.ext (by match a with | ⟨0, _⟩ => rfl | ⟨1, _⟩ => rfl)
theorem idx_maxColumn (r : Fin 1000) (u : Fin 1) : idx_main_call3_v3 (ix2 r u) = ix1 r :=
  funext fun a => Fin.ext (by match a with | ⟨0, _⟩ => rfl)
theorem idx_logLanes (r : Fin 1000) (q : Fin 4) : idx_main_call3_v10 (ix2 r q) = ix2 r (0 : Fin 1) :=
  funext fun a => Fin.ext (by match a with | ⟨0, _⟩ => rfl | ⟨1, _⟩ => rfl)
theorem idx_sumColumn (r : Fin 1000) (u : Fin 1) : idx_main_call3_v8 (ix2 r u) = ix1 r :=
  funext fun a => Fin.ext (by match a with | ⟨0, _⟩ => rfl)
theorem idx_sumLane (r : Fin 1000) (k : Fin 4) : idx_main_call3_v7 (ix1 r) k = ix2 r k :=
  funext fun a => Fin.ext (by match a with | ⟨0, _⟩ => rfl | ⟨1, _⟩ => rfl)

/-- The index over row `r` with lane `k` put back. -/
theorem lift_row (h : S1000x4.Reduces [1] S1000) (r : Fin 1000) (k : Fin (S1000x4.size 1)) :
    h.lift (ix1 r) k = ix2 r k :=
  funext fun c => Fin.ext (by match c with | ⟨0, _⟩ => rfl | ⟨1, _⟩ => rfl)

/-! ## The row maximum: the host's reduce with the maximum, as a fold over the four lanes -/

theorem rowMax_apply (x0 : (⟨S100000x256, .f32⟩ : BufTy).Contents (Elt Ideal)) (x1 : (⟨S2x1600000, .i32⟩ : BufTy).Contents (Elt Ideal)) (x2 : (⟨S100000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x4, .f32⟩ : BufTy).Contents (Elt Ideal)) (x8 : (⟨S4, .f32⟩ : BufTy).Contents (Elt Ideal)) (r : Fin 1000) :
    val_main_call3_v0 (F := Ideal) x0 x1 x2 x3 x4 x5 x6 x7 x8 (ix1 r)
      = (Finset.univ : Finset (Fin 4)).fold max (Ideal.ofBits .f32 0xFF800000#32)
          (fun j => val_main_v120 (F := Ideal) x0 x1 x2 x3 x4 x5 x6 x7 x8 (ix2 r j)) := by
  unfold val_main_call3_v0
  generalize val_main_v120 (F := Ideal) x0 x1 x2 x3 x4 x5 x6 x7 x8 = z
  have h : S1000x4.Reduces [1] S1000 := by decide
  refine (Host.reduce_eq_fold_single (α := Ideal .f32) (s := S1000x4) (t := S1000) FloatOps.maximumf
    (z : S1000x4.Idx → Ideal .f32) _ reducesTo_S1000x4_S1000_d1 h h_S_ (ix1 r)).trans ?_
  exact congrArg (fun f => Finset.fold max (Ideal.ofBits .f32 0xFF800000#32) f (Finset.univ : Finset (Fin 4)))
    (funext fun k => congrArg z (lift_row _ r k))

/-! ## The logits -/

theorem ref_logits (x0 : (⟨S100000x256, .f32⟩ : BufTy).Contents (Elt Ideal)) (x1 : (⟨S2x1600000, .i32⟩ : BufTy).Contents (Elt Ideal)) (x2 : (⟨S100000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x4, .f32⟩ : BufTy).Contents (Elt Ideal)) (x8 : (⟨S4, .f32⟩ : BufTy).Contents (Elt Ideal)) :
    val_main_v120 (F := Ideal) x0 x1 x2 x3 x4 x5 x6 x7 x8 = Cert.Spec.headLogits (val_main_v116 (F := Ideal) x0 x1 x2 x3 x4 x5 x6) x7 x8 := by
  funext i
  obtain ⟨r, q, rfl⟩ : ∃ (r : Fin 1000) (q : Fin 4), i = ix2 r q := ⟨i 0, i 1, eq_ix2 i⟩
  rw [val_main_v120_apply, val_main_v117_apply, val_main_v119_apply, val_main_v118_apply]
  generalize val_main_v116 (F := Ideal) x0 x1 x2 x3 x4 x5 x6 = p
  simp only [lidx_dot, ridx_dot, idx_biasRows, idx_biasRow, Ideal.addf_def]
  rfl

/-! ## The logarithm of the softmax -/

theorem ref_lsm (x0 : (⟨S100000x256, .f32⟩ : BufTy).Contents (Elt Ideal)) (x1 : (⟨S2x1600000, .i32⟩ : BufTy).Contents (Elt Ideal)) (x2 : (⟨S100000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x4, .f32⟩ : BufTy).Contents (Elt Ideal)) (x8 : (⟨S4, .f32⟩ : BufTy).Contents (Elt Ideal)) :
    val_main_v121 (F := Ideal) x0 x1 x2 x3 x4 x5 x6 x7 x8 = Cert.Spec.logSoftmax (val_main_v120 (F := Ideal) x0 x1 x2 x3 x4 x5 x6 x7 x8) := by
  funext i
  obtain ⟨r, q, rfl⟩ : ∃ (r : Fin 1000) (q : Fin 4), i = ix2 r q := ⟨i 0, i 1, eq_ix2 i⟩
  rw [val_main_v121_apply, val_main_call3_v10_apply, val_main_call3_v9_apply, val_main_call3_v8_apply,
    idx_logLanes, idx_sumColumn, val_main_call3_v7_apply, val_main_call3_cst_1_apply, Cert.Spec.logSoftmax_apply]
  simp only [idx_sumLane, val_main_call3_v6_apply, val_main_call3_v5_apply, val_main_call3_v4_apply,
    val_main_call3_v3_apply, idx_maxLanes, idx_maxColumn, val_main_call3_v2_apply, val_main_call3_v1_apply,
    val_main_call3_cst_0_apply, rowMax_apply]
  generalize val_main_v120 (F := Ideal) x0 x1 x2 x3 x4 x5 x6 x7 x8 = z
  simp only [Ideal.hostUnary_exp_def, Ideal.hostUnary_log_def, Ideal.subf_def, Ideal.maximumf_def, Ideal.ofBits_def,
    Ideal.ofBits_zero_f32, zero_add]
  rfl

/-! ## The head -/

/-- THE REFERENCE'S HEAD: its last stage is the specification's head of the pooled rows' stage, the weights and
    the bias. -/
theorem ref_head (x0 : (⟨S100000x256, .f32⟩ : BufTy).Contents (Elt Ideal)) (x1 : (⟨S2x1600000, .i32⟩ : BufTy).Contents (Elt Ideal)) (x2 : (⟨S100000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x4, .f32⟩ : BufTy).Contents (Elt Ideal)) (x8 : (⟨S4, .f32⟩ : BufTy).Contents (Elt Ideal)) :
    val_main_v121 (F := Ideal) x0 x1 x2 x3 x4 x5 x6 x7 x8 = Cert.Spec.head (val_main_v116 (F := Ideal) x0 x1 x2 x3 x4 x5 x6) x7 x8 := by
  rw [ref_lsm, ref_logits]
  rfl

end Cert.ReferenceIdeal.HeadValue

end
-- ==== Proof.lean ====
/-
  The graph-convolution network, kernel against reference, over the extended reals.

  Both programs compute, from the node features x, the edge list e, the graph assignment g and the weights,
      log_softmax( pool( A( relu( A( x·W1 ) + b1 ) · W2 ) + b2 ) · Wc + bc )
  where A gathers rows at the edges' sources, scales them by the edges' weights and adds them up at the edges'
  destinations, and pool is the per-graph mean. The host operations (the edge lists with self loops, the degrees,
  the edge weights, the two aggregations, the mean pool) are the same operations in both programs and are carried
  as the shared stage functions. The three dense products differ in form only: the kernel's program computes each
  block of rows by a matrix unit product into a zero accumulator (the second with the rectifier fused into its
  load, the third with the bias and the log-softmax after it), the reference by the host's contraction; entry by
  entry both are the same sums, in the same order of operations, so no law of the extended reals beyond the zero
  word's value is used and the inputs' finiteness is never opened.
  The frames of the two kernel programs are the generated ones; the reference's frame is its run with the result
  dropped; the ideal pass rewrote nothing, so the preservation claim is trivial.
-/
import proofs.«128362_j10969346474784_1_alg».proof.Defs
import proofs.«128362_j10969346474784_1_alg».proof.Proof.Gen.Kernel.Frame
import proofs.«128362_j10969346474784_1_alg».proof.Proof.Gen.KernelIdeal.Frame
import proofs.«128362_j10969346474784_1_alg».proof.Proof.Gen.ReferenceIdeal
import proofs.«128362_j10969346474784_1_alg».proof.Proof.Gen.Pre_finite_inputs
import proofs.«128362_j10969346474784_1_alg».proof.Proof.KernelRun
import proofs.«128362_j10969346474784_1_alg».proof.Proof.Boundary
import proofs.«128362_j10969346474784_1_alg».proof.Proof.Linear0
import proofs.«128362_j10969346474784_1_alg».proof.Proof.Linear1
import proofs.«128362_j10969346474784_1_alg».proof.Proof.Head
import proofs.«128362_j10969346474784_1_alg».proof.Proof.ReferenceRead
import proofs.«128362_j10969346474784_1_alg».proof.Proof.RefStages
import proofs.«128362_j10969346474784_1_alg».proof.Proof.RefLinear
import proofs.«128362_j10969346474784_1_alg».proof.Proof.RefHead
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Stage

/-- The network's result as one function of the nine argument arrays. -/
def network (x0 : (⟨Cert.KernelIdeal.S100000x256, .f32⟩ : BufTy).Contents (Elt Ideal)) (x1 : (⟨Cert.KernelIdeal.S2x1600000, .i32⟩ : BufTy).Contents (Elt Ideal)) (x2 : (⟨Cert.KernelIdeal.S100000, .i32⟩ : BufTy).Contents (Elt Ideal)) (x3 : (⟨Cert.KernelIdeal.S256x128, .f32⟩ : BufTy).Contents (Elt Ideal)) (x4 : (⟨Cert.KernelIdeal.S128, .f32⟩ : BufTy).Contents (Elt Ideal)) (x5 : (⟨Cert.KernelIdeal.S128x64, .f32⟩ : BufTy).Contents (Elt Ideal)) (x6 : (⟨Cert.KernelIdeal.S64, .f32⟩ : BufTy).Contents (Elt Ideal)) (x7 : (⟨Cert.KernelIdeal.S64x4, .f32⟩ : BufTy).Contents (Elt Ideal)) (x8 : (⟨Cert.KernelIdeal.S4, .f32⟩ : BufTy).Contents (Elt Ideal)) :
    (⟨Cert.KernelIdeal.S1000x4, .f32⟩ : BufTy).Contents (Elt Ideal) :=
  Cert.Spec.head
    (meanPool (aggregate64 (Cert.Spec.matProd (Cert.Spec.relu (aggregate128 (Cert.Spec.matProd x0 x3) x1 x4)) x5) x1 x6) x2)
    x7 x8

section Kernel

open Cert.KernelIdeal Cert.KernelIdeal.Gen Cert.KernelIdeal.Boundary

variable (m : (ℓ : Loc nD τ sig) → Buf (Elt Ideal) ℓ) (ρ : Dev nD → PrngReg)

/-- The kernel program's result array after its run: the three dense stages' arrays, each the stage function of
    what the stretch before it left. -/
theorem kernel_value (c : Dev nD) :
    W8 m ρ c (Proc.devRef .tc main_v81) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e2 := Cert.KernelIdeal.HeadValue.array2 (V7 m ρ) c
  have e1 := Cert.KernelIdeal.Linear1.array1 (V5 m ρ) c
  have e0 := Cert.KernelIdeal.Linear0.array0 (V3 m ρ) c
  have hp : V7 m ρ c main_v80 = _ := W7_pooled m ρ c
  have h7 : V7 m ρ c main_arg7 = _ := W7_kept m ρ c (b := main_arg7) (by decide)
  have h8 : V7 m ρ c main_arg8 = _ := W7_kept m ρ c (b := main_arg8) (by decide)
  have h52 : W6 m ρ c (Proc.devRef .tc main_v52) = _ := W6_arr m ρ c 2
  have h51 : V5 m ρ c main_v51 = _ := W5_h1 m ρ c
  have h5 : V5 m ρ c main_arg5 = _ := (W5_kept m ρ c (b := main_arg5) (by decide)).trans (W3_kept m ρ c (b := main_arg5) (by decide))
  have h35 : W4 m ρ c (Proc.devRef .tc main_v35) = _ := W4_arr m ρ c 2
  have h0 : V3 m ρ c main_arg0 = _ := W3_kept m ρ c (b := main_arg0) (by decide)
  have h3 : V3 m ρ c main_arg3 = _ := W3_kept m ρ c (b := main_arg3) (by decide)
  refine (W8_arr m ρ c 3).trans (e2.trans ?_)
  rw [hp, h7, h8, h52, e1]
  dsimp only [Cert.KernelIdeal.Linear1.xarr, Cert.KernelIdeal.Linear1.warr]
  rw [h51, h5, h35, e0]
  dsimp only [Cert.KernelIdeal.Linear0.xarr, Cert.KernelIdeal.Linear0.warr]
  rw [h0, h3]
  rfl

end Kernel

section Reference

open Cert.ReferenceIdeal Cert.ReferenceIdeal.ReadP

/-- The reference's result is the same function of its arguments. -/
theorem reference_value (x0 : (⟨Cert.KernelIdeal.S100000x256, .f32⟩ : BufTy).Contents (Elt Ideal)) (x1 : (⟨Cert.KernelIdeal.S2x1600000, .i32⟩ : BufTy).Contents (Elt Ideal)) (x2 : (⟨Cert.KernelIdeal.S100000, .i32⟩ : BufTy).Contents (Elt Ideal)) (x3 : (⟨Cert.KernelIdeal.S256x128, .f32⟩ : BufTy).Contents (Elt Ideal)) (x4 : (⟨Cert.KernelIdeal.S128, .f32⟩ : BufTy).Contents (Elt Ideal)) (x5 : (⟨Cert.KernelIdeal.S128x64, .f32⟩ : BufTy).Contents (Elt Ideal)) (x6 : (⟨Cert.KernelIdeal.S64, .f32⟩ : BufTy).Contents (Elt Ideal)) (x7 : (⟨Cert.KernelIdeal.S64x4, .f32⟩ : BufTy).Contents (Elt Ideal)) (x8 : (⟨Cert.KernelIdeal.S4, .f32⟩ : BufTy).Contents (Elt Ideal)) :
    val_main_v121 (F := Ideal) x0 x1 x2 x3 x4 x5 x6 x7 x8 = network x0 x1 x2 x3 x4 x5 x6 x7 x8 := by
  rw [Cert.ReferenceIdeal.HeadValue.ref_head, Cert.ReferenceIdeal.StageValue.ref_pooled, Cert.ReferenceIdeal.LinearValue.ref_xw2,
    Cert.ReferenceIdeal.StageValue.ref_h1, Cert.ReferenceIdeal.LinearValue.ref_xw1]
  rfl

end Reference

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the network's result. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (kernel_value m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8⟩ := hagree c
    rw [Cert.ReferenceIdeal.ReadP.val_main_v121_eq, reference_value, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
